-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32 : Shape := ⟨3, ![32, 256, 32]⟩
abbrev S32x1x1 : Shape := ⟨3, ![32, 1, 1]⟩
abbrev S_ : Shape := ⟨0, ![]⟩

class Facts : Prop where
  bcast_S_S32x256x32 : S_.BroadcastsInDim S32x256x32 (![] : Fin 0 → Fin S32x256x32.rank)
  reducesTo_S32x256x32_S_d0_1_2 : S32x256x32.ReducesTo [0, 1, 2] S_
  h_S_ : 0 < S_.numel
  bcast_S_S32x1x1 : S_.BroadcastsInDim S32x1x1 (![] : Fin 0 → Fin S32x1x1.rank)
  reducesTo_S32x1x1_S_d0_1_2 : S32x1x1.ReducesTo [0, 1, 2] S_

variable [Facts]

def fn {F : FTy → Type} [FloatOps F] (main_arg0 : FVec F S32x256x32 .f32) (main_arg1 : FVec F S32x256x32 .f32) (main_arg2 : FVec F S32x1x1 .f32) : IVec S_ 1 :=
  let main_v0 : FVec F S32x256x32 .f32 := Host.absf main_arg0
  let main_cst : FVec F S_ .f32 := constant S_ .f32 0x7F800000#32
  let main_v1 : FVec F S32x256x32 .f32 := broadcastInDim S32x256x32 ![] bcast_S_S32x256x32 main_cst
  let main_v2 : IVec S32x256x32 1 := cmpf .olt main_v0 main_v1
  let main_c : IVec S_ 1 := constantI S_ 1 1#1
  let main_v3 : IVec S_ 1 := (fun x v => Host.reduce IntOp.andi x v reducesTo_S32x256x32_S_d0_1_2 h_S_) main_v2 main_c
  let main_v4 : FVec F S32x256x32 .f32 := Host.absf main_arg1
  let main_cst_0 : FVec F S_ .f32 := constant S_ .f32 0x7F800000#32
  let main_v5 : FVec F S32x256x32 .f32 := broadcastInDim S32x256x32 ![] bcast_S_S32x256x32 main_cst_0
  let main_v6 : IVec S32x256x32 1 := cmpf .olt main_v4 main_v5
  let main_c_1 : IVec S_ 1 := constantI S_ 1 1#1
  let main_v7 : IVec S_ 1 := (fun x v => Host.reduce IntOp.andi x v reducesTo_S32x256x32_S_d0_1_2 h_S_) main_v6 main_c_1
  let main_v8 : IVec S_ 1 := andi main_v3 main_v7
  let main_v9 : FVec F S32x1x1 .f32 := Host.absf main_arg2
  let main_cst_2 : FVec F S_ .f32 := constant S_ .f32 0x7F800000#32
  let main_v10 : FVec F S32x1x1 .f32 := broadcastInDim S32x1x1 ![] bcast_S_S32x1x1 main_cst_2
  let main_v11 : IVec S32x1x1 1 := cmpf .olt main_v9 main_v10
  let main_c_3 : IVec S_ 1 := constantI S_ 1 1#1
  let main_v12 : IVec S_ 1 := (fun x v => Host.reduce IntOp.andi x v reducesTo_S32x1x1_S_d0_1_2 h_S_) main_v11 main_c_3
  let main_v13 : IVec S_ 1 := andi main_v8 main_v12
  main_v13
-- ==== Kernel.lean ====
abbrev S32x256x32 : Shape := ⟨3, ![32, 256, 32]⟩
abbrev S32x1x1 : Shape := ⟨3, ![32, 1, 1]⟩
abbrev S32x8x1 : Shape := ⟨3, ![32, 8, 1]⟩
abbrev S1x256 : Shape := ⟨2, ![1, 256]⟩
abbrev S16x256x32 : Shape := ⟨3, ![16, 256, 32]⟩
abbrev S16x8x1 : Shape := ⟨3, ![16, 8, 1]⟩
abbrev S1x128 : Shape := ⟨2, ![1, 128]⟩
abbrev S16x1x1 : Shape := ⟨3, ![16, 1, 1]⟩
abbrev S16x256 : Shape := ⟨2, ![16, 256]⟩
abbrev S16x256x256 : Shape := ⟨3, ![16, 256, 256]⟩
abbrev S16x256x1 : Shape := ⟨3, ![16, 256, 1]⟩
abbrev S16x1x256 : Shape := ⟨3, ![16, 1, 256]⟩
abbrev S16 : Shape := ⟨1, ![16]⟩
abbrev S1x16 : Shape := ⟨2, ![1, 16]⟩
abbrev S1 : Shape := ⟨1, ![1]⟩
abbrev S1x1 : Shape := ⟨2, ![1, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S32x256x32, .f32⟩
  | .hbm, ⟨1, _⟩ => ⟨S32x256x32, .f32⟩
  | .hbm, ⟨2, _⟩ => ⟨S32x1x1, .f32⟩
  | .hbm, ⟨3, _⟩ => ⟨S32x8x1, .f32⟩
  | .hbm, ⟨4, _⟩ => ⟨S1x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16x256x32, .f32⟩
  | .local _ .vmem, ⟨1, _⟩ => ⟨S16x256x32, .f32⟩
  | .local _ .vmem, ⟨2, _⟩ => ⟨S16x256x32, .f32⟩
  | .local _ .vmem, ⟨3, _⟩ => ⟨S16x256x32, .f32⟩
  | .local _ .vmem, ⟨4, _⟩ => ⟨S16x8x1, .f32⟩
  | .local _ .vmem, ⟨5, _⟩ => ⟨S16x8x1, .f32⟩
  | .local _ .vmem, ⟨6, _⟩ => ⟨S1x128, .f32⟩
  | .local _ .vmem, ⟨7, _⟩ => ⟨S1x128, .f32⟩
  | _, _ => ⟨S32x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S32x1x1_S32x8x1_0_1_2 : S32x1x1.BroadcastsInDim S32x8x1 (![0, 1, 2] : Fin 3 → Fin S32x8x1.rank)
  inb_S16x256x32_S16x256x32_0_0_0 : ∀ a, (![0, 0, 0] : Fin 3 → Nat) a + S16x256x32.size a ≤ S16x256x32.size a
  h_S16x256x32 : 0 < S16x256x32.numel
  inb_S16x8x1_S16x8x1_0_0_0 : ∀ a, (![0, 0, 0] : Fin 3 → Nat) a + S16x8x1.size a ≤ S16x8x1.size a
  h_S16x8x1 : 0 < S16x8x1.numel
  shapeCasts_S16x8x1_S16x8x1 : S16x8x1.ShapeCasts S16x8x1
  slices_S16x8x1_o0_0_0_S16x1x1 : S16x8x1.Slices ![0, 0, 0] S16x1x1
  reduces_S16x256x32_S16x256 : S16x256x32.Reduces [2] S16x256
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  broadcasts_S16x1x1_S16x256x256 : S16x1x1.Broadcasts S16x256x256
  reduces_S16x256x256_S16x256 : S16x256x256.Reduces [2] S16x256
  reduces_S16x256_S16 : S16x256.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  iota_S1x128_d1_w32 : S1x128.Iotas .tc 32 [1]
  inb_S1x128_S1x128_0_0 : ∀ a, (![0, 0] : Fin 2 → Nat) a + S1x128.size a ≤ S1x128.size a
  h_S1x128 : 0 < S1x128.numel
  reducesTo_S1x256_S_d0_1 : S1x256.ReducesTo [0, 1] S_
  h_S_ : 0 < S_.numel
  dot_S16x256x32_S16x256x32_S16x256x256_2_2_1_1_0_0_wf : DotDims.WF S16x256x32 S16x256x32 S16x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x32.size a ≤ S32x256x32.size a
  hwx0_0 : ∀ i : grid0.Coords, EltTy.bits .f32 = 32 ∨ (Rect.block (s := S32x256x32) S16x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x32.size a ≤ S32x256x32.size a
  hwx0_1 : ∀ i : grid0.Coords, EltTy.bits .f32 = 32 ∨ (Rect.block (s := S32x256x32) S16x256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8x1.size a ≤ S32x8x1.size a
  hwx0_2 : ∀ i : grid0.Coords, EltTy.bits .f32 = 32 ∨ (Rect.block (s := S32x8x1) S16x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)

variable [Facts₀]

def dot_S16x256x32_S16x256x32_S16x256x256_2_2_1_1_0_0 : DotDims S16x256x32 S16x256x32 S16x256x256 where
  lhsContracting := [2]
  rhsContracting := [2]
  lhsNonContracting := [1]
  rhsNonContracting := [1]
  lhsBatch := [0]
  rhsBatch := [0]
  wf := dot_S16x256x32_S16x256x32_S16x256x256_2_2_1_1_0_0_wf

abbrev win0_0 : Pipeline.Window sig grid0 :=
  Pipeline.Window.ofSpec (Memref.whole main_arg0) S16x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x32 : Shape := ⟨3, ![32, 256, 32]⟩
abbrev S32x1x1 : Shape := ⟨3, ![32, 1, 1]⟩
abbrev S_ : Shape := ⟨0, ![]⟩
abbrev S32x256 : Shape := ⟨2, ![32, 256]⟩
abbrev S32x256x256 : Shape := ⟨3, ![32, 256, 256]⟩
abbrev S32x256x1 : Shape := ⟨3, ![32, 256, 1]⟩
abbrev S32x1x256 : Shape := ⟨3, ![32, 1, 256]⟩
abbrev S32 : Shape := ⟨1, ![32]⟩

abbrev nBuf : Space → Nat
  | .hbm => 117
  | .vmem => 0
  | .smem => 0
  | _ => 0

abbrev bufTy : (tb : Table) → Fin (tcTables nBuf tb) → BufTy
  | .hbm, ⟨0, _⟩ => ⟨S32x256x32, .f32⟩
  | .hbm, ⟨1, _⟩ => ⟨S32x256x32, .f32⟩
  | .hbm, ⟨2, _⟩ => ⟨S32x1x1, .f32⟩
  | .hbm, ⟨3, _⟩ => ⟨S32x256x32, .f32⟩
  | .hbm, ⟨4, _⟩ => ⟨S_, .f32⟩
  | .hbm, ⟨5, _⟩ => ⟨S32x256, .f32⟩
  | .hbm, ⟨6, _⟩ => ⟨S32x256x32, .f32⟩
  | .hbm, ⟨7, _⟩ => ⟨S_, .f32⟩
  | .hbm, ⟨8, _⟩ => ⟨S32x256, .f32⟩
  | .hbm, ⟨9, _⟩ => ⟨S32x256x256, .f32⟩
  | .hbm, ⟨10, _⟩ => ⟨S32x256x1, .f32⟩
  | .hbm, ⟨11, _⟩ => ⟨S32x1x256, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S32x256x256, .f32⟩
  | .hbm, ⟨21, _⟩ => ⟨S32x256x256, .f32⟩
  | .hbm, ⟨22, _⟩ => ⟨S32x256x256, .f32⟩
  | .hbm, ⟨23, _⟩ => ⟨S_, .f32⟩
  | .hbm, ⟨24, _⟩ => ⟨S32x256x256, .f32⟩
  | .hbm, ⟨25, _⟩ => ⟨S32x256x256, .f32⟩
  | .hbm, ⟨26, _⟩ => ⟨S32x1x1, .f32⟩
  | .hbm, ⟨27, _⟩ => ⟨S32x256x256, .f32⟩
  | .hbm, ⟨28, _⟩ => ⟨S32x256x256, .f32⟩
  | .hbm, ⟨29, _⟩ => ⟨S_, .f32⟩
  | .hbm, ⟨30, _⟩ => ⟨S32x256x256, .f32⟩
  | .hbm, ⟨31, _⟩ => ⟨S32x256x256, .f32⟩
  | .hbm, ⟨32, _⟩ => ⟨S32x256x256, .f32⟩
  | .hbm, ⟨33, _⟩ => ⟨S32x256x32, .f32⟩
  | .hbm, ⟨34, _⟩ => ⟨S_, .f32⟩
  | .hbm, ⟨35, _⟩ => ⟨S32x256, .f32⟩
  | .hbm, ⟨36, _⟩ => ⟨S32x256x32, .f32⟩
  | .hbm, ⟨37, _⟩ => ⟨S_, .f32⟩
  | .hbm, ⟨38, _⟩ => ⟨S32x256, .f32⟩
  | .hbm, ⟨39, _⟩ => ⟨S32x256x256, .f32⟩
  | .hbm, ⟨40, _⟩ => ⟨S32x256x1, .f32⟩
  | .hbm, ⟨41, _⟩ => ⟨S32x1x256, .f32⟩
  | .hbm, ⟨42, _⟩ => ⟨S32x256x256, .f32⟩
  | .hbm, ⟨43, _⟩ => ⟨S32x256x256, .f32⟩
  | .hbm, ⟨44, _⟩ => ⟨S32x256x256, .f32⟩
  | .hbm, ⟨45, _⟩ => ⟨S_, .f32⟩
  | .hbm, ⟨46, _⟩ => ⟨S32x256x256, .f32⟩
  | .hbm, ⟨47, _⟩ => ⟨S32x256x256, .f32⟩
  | .hbm, ⟨48, _⟩ => ⟨S32x256x256, .f32⟩
  | .hbm, ⟨49, _⟩ => ⟨S_, .f32⟩
  | .hbm, ⟨50, _⟩ => ⟨S32x256x256, .f32⟩
  | .hbm, ⟨51, _⟩ => ⟨S32x256x256, .f32⟩
  | .hbm, ⟨52, _⟩ => ⟨S32x256x256, .f32⟩
  | .hbm, ⟨53, _⟩ => ⟨S_, .f32⟩
  | .hbm, ⟨54, _⟩ => ⟨S32x256x256, .f32⟩
  | .hbm, ⟨55, _⟩ => ⟨S32x256x256, .f32⟩
  | .hbm, ⟨56, _⟩ => ⟨S32x1x1, .f32⟩
  | .hbm, ⟨57, _⟩ => ⟨S32x256x256, .f32⟩
  | .hbm, ⟨58, _⟩ => ⟨S32x256x256, .f32⟩
  | .hbm, ⟨59, _⟩ => ⟨S_, .f32⟩
  | .hbm, ⟨60, _⟩ => ⟨S32x256x256, .f32⟩
  | .hbm, ⟨61, _⟩ => ⟨S32x256x256, .f32⟩
  | .hbm, ⟨62, _⟩ => ⟨S32x256x256, .f32⟩
  | .hbm, ⟨63, _⟩ => ⟨S32x256x32, .f32⟩
  | .hbm, ⟨64, _⟩ => ⟨S_, .f32⟩
  | .hbm, ⟨65, _⟩ => ⟨S32x256, .f32⟩
  | .hbm, ⟨66, _⟩ => ⟨S32x256x32, .f32⟩
  | .hbm, ⟨67, _⟩ => ⟨S_, .f32⟩
  | .hbm, ⟨68, _⟩ => ⟨S32x256, .f32⟩
  | .hbm, ⟨69, _⟩ => ⟨S32x256x256, .f32⟩
  | .hbm, ⟨70, _⟩ => ⟨S32x256x1, .f32⟩
  | .hbm, ⟨71, _⟩ => ⟨S32x1x256, .f32⟩
  | .hbm, ⟨72, _⟩ => ⟨S32x256x256, .f32⟩
  | .hbm, ⟨73, _⟩ => ⟨S32x256x256, .f32⟩
  | .hbm, ⟨74, _⟩ => ⟨S32x256x256, .f32⟩
  | .hbm, ⟨75, _⟩ => ⟨S_, .f32⟩
  | .hbm, ⟨76, _⟩ => ⟨S32x256x256, .f32⟩
  | .hbm, ⟨77, _⟩ => ⟨S32x256x256, .f32⟩
  | .hbm, ⟨78, _⟩ => ⟨S32x256x256, .f32⟩
  | .hbm, ⟨79, _⟩ => ⟨S_, .f32⟩
  | .hbm, ⟨80, _⟩ => ⟨S32x256x256, .f32⟩
  | .hbm, ⟨81, _⟩ => ⟨S32x256x256, .f32⟩
  | .hbm, ⟨82, _⟩ => ⟨S32x256x256, .f32⟩
  | .hbm, ⟨83, _⟩ => ⟨S_, .f32⟩
  | .hbm, ⟨84, _⟩ => ⟨S32x256x256, .f32⟩
  | .hbm, ⟨85, _⟩ => ⟨S32x256x256, .f32⟩
  | .hbm, ⟨86, _⟩ => ⟨S32x1x1, .f32⟩
  | .hbm, ⟨87, _⟩ => ⟨S32x256x256, .f32⟩
  | .hbm, ⟨88, _⟩ => ⟨S32x256x256, .f32⟩
  | .hbm, ⟨89, _⟩ => ⟨S_, .f32⟩
  | .hbm, ⟨90, _⟩ => ⟨S32x256x256, .f32⟩
  | .hbm, ⟨91, _⟩ => ⟨S32x256x256, .f32⟩
  | .hbm, ⟨92, _⟩ => ⟨S32x256x256, .f32⟩
  | .hbm, ⟨93, _⟩ => ⟨S_, .f32⟩
  | .hbm, ⟨94, _⟩ => ⟨S32, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S_, .f32⟩
  | .hbm, ⟨99, _⟩ => ⟨S32, .f32⟩
  | .hbm, ⟨100, _⟩ => ⟨S_, .f32⟩
  | .hbm, ⟨101, _⟩ => ⟨S32, .f32⟩
  | .hbm, ⟨102, _⟩ => ⟨S32, .f32⟩
  | .hbm, ⟨103, _⟩ => ⟨S32, .f32⟩
  | .hbm, ⟨104, _⟩ => ⟨S_, .f32⟩
  | .hbm, ⟨105, _⟩ => ⟨S32, .f32⟩
  | .hbm, ⟨106, _⟩ => ⟨S_, .f32⟩
  | .hbm, ⟨107, _⟩ => ⟨S32, .f32⟩
  | .hbm, ⟨108, _⟩ => ⟨S32, .f32⟩
  | .hbm, ⟨109, _⟩ => ⟨S_, .f32⟩
  | .hbm, ⟨110, _⟩ => ⟨S32, .f32⟩
  | .hbm, ⟨111, _⟩ => ⟨S32, .f32⟩
  | .hbm, ⟨112, _⟩ => ⟨S32, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S32x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_cst_12 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩
abbrev main_v74 : Ref sig .tc := ⟨.hbm, 97, rfl⟩
abbrev main_cst_19 : Ref sig .tc := ⟨.hbm, 98, rfl⟩
abbrev main_v75 : Ref sig .tc := ⟨.hbm, 99, rfl⟩
abbrev main_cst_20 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_21 : Ref sig .tc := ⟨.hbm, 104, rfl⟩
abbrev main_v79 : Ref sig .tc := ⟨.hbm, 105, rfl⟩
abbrev main_cst_22 : Ref sig .tc := ⟨.hbm, 106, rfl⟩
abbrev main_v80 : Ref sig .tc := ⟨.hbm, 107, rfl⟩
abbrev main_v81 : Ref sig .tc := ⟨.hbm, 108, rfl⟩
abbrev main_cst_23 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_24 : Ref sig .tc := ⟨.hbm, 113, rfl⟩
abbrev main_v85 : Ref sig .tc := ⟨.hbm, 114, rfl⟩
abbrev main_cst_25 : Ref sig .tc := ⟨.hbm, 115, rfl⟩
abbrev main_v86 : Ref sig .tc := ⟨.hbm, 116, rfl⟩

abbrev nD : Nat := 1
abbrev τ : Topo := Topo.v7x

variable {F : FTy → Type} [FloatOps F]

class Facts₀ : Prop where
  reducesTo_S32x256x32_S32x256_d2 : S32x256x32.ReducesTo [2] S32x256
  h_S_ : 0 < S_.numel
  bcast_S32x256_S32x256x1_0_1 : S32x256.BroadcastsInDim S32x256x1 (![0, 1] : Fin 2 → Fin S32x256x1.rank)
  bcast_S32x256_S32x1x256_0_2 : S32x256.BroadcastsInDim S32x1x256 (![0, 2] : Fin 2 → Fin S32x1x256.rank)
  bcast_S32x256x1_S32x256x256_0_1_2 : S32x256x1.BroadcastsInDim S32x256x256 (![0, 1, 2] : Fin 3 → Fin S32x256x256.rank)
  bcast_S32x1x256_S32x256x256_0_1_2 : S32x1x256.BroadcastsInDim S32x256x256 (![0, 1, 2] : Fin 3 → Fin S32x256x256.rank)
  bcast_S_S32x256x256 : S_.BroadcastsInDim S32x256x256 (![] : Fin 0 → Fin S32x256x256.rank)
  bcast_S32x1x1_S32x256x256_0_1_2 : S32x1x1.BroadcastsInDim S32x256x256 (![0, 1, 2] : Fin 3 → Fin S32x256x256.rank)
  reducesTo_S32x256x256_S32_d1_2 : S32x256x256.ReducesTo [1, 2] S32
  bcast_S_S32 : S_.BroadcastsInDim S32 (![] : Fin 0 → Fin S32.rank)
  reducesTo_S32_S_d0 : S32.ReducesTo [0] S_
  dot_S32x256x32_S32x256x32_S32x256x256_2_2_1_1_0_0_wf : DotDims.WF S32x256x32 S32x256x32 S32x256x256 [2] [2] [1] [1] [0] [0]

variable [Facts₀]

def dot_S32x256x32_S32x256x32_S32x256x256_2_2_1_1_0_0 : DotDims S32x256x32 S32x256x32 S32x256x256 where
  lhsContracting := [2]
  rhsContracting := [2]
  lhsNonContracting := [1]
  rhsNonContracting := [1]
  lhsBatch := [0]
  rhsBatch := [0]
  wf := dot_S32x256x32_S32x256x32_S32x256x256_2_2_1_1_0_0_wf

class Facts : Prop extends Facts₀ where

variable [Facts]
-- ==== Proof.Spec.lean ====
/-
  The quantity both programs compute, as one function of the three argument arrays over the extended reals.

  For two clouds of 256 points in 32 dimensions, `a` and `b`, and a bandwidth `w`, the kernel matrix has the entries
  `exp (-w · max (√(max (|aₙ|² + |b_m|² − 2·aₙ·b_m) 0)) ε / 32)`: the squared distance written through the three inner
  products, clamped at zero before the root, the root clamped below at `ε`. A batch's value is the mean of the matrix of
  `a` against itself plus that of `b` against itself minus twice that of `a` against `b`; the result is the mean over the
  32 batches. The constants `2`, `ε`, `32` and `65536` are left as the f32 words both programs print (the same word reads
  the same on both sides, so none is ever evaluated); only the zero word is read as `0`.
-/
import Idealize.ShloMosaic.PureOps.Ideal
import Idealize.ShloMosaic.PureOps.Ideal.Laws
import Idealize.ShloMosaic.Lib.ValueIdx

noncomputable section

open scoped BigOperators

namespace Cert.Mmd

open Idealize.ShloMosaic

/-- One entry of the kernel matrix of the clouds `a` and `b` at bandwidth `w`: row `n` of `a` against row `m` of `b`. -/
def entry (a b : Fin 256 → Fin 32 → EReal) (w : EReal) (n m : Fin 256) : EReal :=
  Ideal.exp (Ideal.div
    (-w * max (Ideal.sqrt (max (((∑ d : Fin 32, a n d * a n d) + ∑ d : Fin 32, b m d * b m d)
        - Ideal.ofBits .f32 0x40000000#32 * ∑ d : Fin 32, a n d * b m d) 0)) (Ideal.ofBits .f32 0x38D1B717#32))
    (Ideal.ofBits .f32 0x42000000#32))

/-- The mean of the kernel matrix: the sum of its 256 × 256 entries, row by row, over the word of 65536. -/
def mean (a b : Fin 256 → Fin 32 → EReal) (w : EReal) : EReal :=
  Ideal.div (∑ n : Fin 256, ∑ m : Fin 256, entry a b w n m) (Ideal.ofBits .f32 0x47800000#32)

/-- One batch's value: the two self means minus twice the cross mean. -/
def perBatch (a b : Fin 256 → Fin 32 → EReal) (w : EReal) : EReal :=
  (mean a a w + mean b b w) - Ideal.ofBits .f32 0x40000000#32 * mean a b w

/-- The result: the sum of the 32 batches' values over the word of 32. -/
def total (X Y : Fin 32 → Fin 256 → Fin 32 → EReal) (W : Fin 32 → EReal) : EReal :=
  Ideal.div (∑ B : Fin 32, perBatch (X B) (Y B) (W B)) (Ideal.ofBits .f32 0x42000000#32)

end Cert.Mmd

end
-- ==== Proof.LaneSum.lean ====
/-
  Two re-indexings of finite sums, over any commutative additive monoid (so they hold on the extended reals with their
  infinities): the 32 batches are the 16 batches of the first half followed by the 16 of the second, and a row of 256
  lanes that is zero except at the first lane of each 128-lane half sums to the two values it holds there.
-/
import Idealize.ShloMosaic.Lib.ValueIdx

open scoped BigOperators

namespace Cert.Mmd

variable {M : Type*} [AddCommMonoid M]

/-- Batch `b` of half `h` among the 32 batches: `16 h + b`. -/
def batchOf (h : Fin 2) (b : Fin 16) : Fin 32 :=
  ⟨h.val * 16 + b.val, by have := h.isLt; have := b.isLt; omega⟩

/-- The half a lane of the 256-lane row lies in. -/
def halfOf (l : Fin 256) : Fin 2 := ⟨l.val / 128, by have := l.isLt; omega⟩

/-- Summing half by half, batch by batch, is summing over the 32 batches. -/
theorem sum_batchOf (f : Fin 32 → M) : ∑ h : Fin 2, ∑ b : Fin 16, f (batchOf h b) = ∑ B : Fin 32, f B := by
  rw [Fin.sum_univ_two, show (∑ B : Fin 32, f B) = ∑ B : Fin (16 + 16), f B from rfl, Fin.sum_univ_add]
  refine congrArg₂ (· + ·) (Finset.sum_congr rfl fun b _ => congrArg f (Fin.ext ?_))
    (Finset.sum_congr rfl fun b _ => congrArg f (Fin.ext ?_))
  · show 0 * 16 + b.val = b.val
    omega
  · show 1 * 16 + b.val = 16 + b.val
    omega

/-- A 256-lane row holding `S h` at the first lane of half `h` and zero elsewhere sums to `S 0 + S 1`. -/
theorem sum_lanes (S : Fin 2 → M) :
    (∑ l : Fin 256, if l.val % 128 = 0 then S (halfOf l) else 0) = S 0 + S 1 := by
  rw [Fintype.sum_eq_add (⟨0, by omega⟩ : Fin 256) ⟨128, by omega⟩
    (fun h => absurd (congrArg Fin.val h) (by decide)) ?_]
  · rfl
  · rintro l ⟨h0, h1⟩
    have hl : l.val % 128 ≠ 0 := by
      have := l.isLt
      have h0' : l.val ≠ 0 := fun e => h0 (Fin.ext e)
      have h1' : l.val ≠ 128 := fun e => h1 (Fin.ext e)
      omega
    exact if_neg hl

end Cert.Mmd
-- ==== Proof.LibSumIdx.lean ====
/-
  Sums over index sets by coordinates, and the host's float sum over the two trailing axes of a rank-3 array.

  A rank-1 index set is its coordinate range and a rank-3 index set the product of its three coordinate ranges, so a sum over
  either is the iterated sum over the coordinates (`sum_idx1`, `sum_idx3`; the rank-2 case is the library's `sum_idx2`). The
  library reads a host sum over ONE axis, or into a result whose axes all have size one; `hostReduceAdd_d12` reads the sum of
  an [n0, n1, n2] array over axes 1 and 2 into [n0] — what `jnp.sum` or `jnp.mean` over `axis=(1, 2)` lowers to — at index `B`:
  the initial value plus the double sum over the two reduced coordinates. All over a commutative additive monoid or the
  extended reals, so valid at the infinities.
-/
import Idealize.ShloMosaic.Lib.ValueIdx
import Idealize.ShloMosaic.PureOps.Ideal.Laws

noncomputable section

open scoped BigOperators

namespace Cert.LibSumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping axes 1 and 2 of the index (B, n, m) leaves an index whose one coordinate is B. -/
theorem drop12_val {n0 n1 n2 : Nat} (h : (⟨3, ![n0, n1, n2]⟩ : Shape).ReducesTo [1, 2] ⟨1, ![n0]⟩) (B : Fin n0) (n : Fin n1)
    (m : Fin n2) : ((h.drop (ix3 B n m)) 0 : Nat) = B.val :=
  h.drop_apply_val_of_eq (ix3 B n m) 0 0 (by show 0 < 1; exact Nat.zero_lt_one) rfl

/-- So (B, n, m) drops to the index B' exactly when B is B'. -/
theorem drop12_eq_iff {n0 n1 n2 : Nat} (h : (⟨3, ![n0, n1, n2]⟩ : Shape).ReducesTo [1, 2] ⟨1, ![n0]⟩) (B : Fin n0) (n : Fin n1)
    (m : Fin n2) (B' : Fin n0) : h.drop (ix3 B n m) = ix1 B' ↔ B = B' := by
  constructor
  · intro e
    have h2 : ((h.drop (ix3 B n m)) 0 : Nat) = B'.val := by rw [e]; rfl
    exact Fin.ext ((drop12_val h B n m).symm.trans h2)
  · intro e
    subst e
    funext a
    match a with
    | ⟨0, _⟩ => exact Fin.ext (drop12_val h B n m)

/-- The host's float sum over axes 1 and 2 of an [n0, n1, n2] array, at index B: the initial value plus the double sum of
    slab B, row by row. -/
theorem hostReduceAdd_d12 {n0 n1 n2 : Nat} (h : (⟨3, ![n0, n1, n2]⟩ : Shape).ReducesTo [1, 2] ⟨1, ![n0]⟩)
    (f : (⟨3, ![n0, n1, n2]⟩ : Shape).Idx → EReal) (init : EReal) (B : Fin n0) :
    Ideal.hostReduceAdd h f init (ix1 B) = init + ∑ n : Fin n1, ∑ m : Fin n2, f (ix3 B n m) := by
  unfold Ideal.hostReduceAdd
  refine congrArg (init + ·) ?_
  rw [Finset.sum_filter]
  refine (sum_idx3 _).trans ?_
  refine (Finset.sum_eq_single B ?_ ?_).trans ?_
  · intro B' _ hB
    refine Finset.sum_eq_zero fun n _ => Finset.sum_eq_zero fun m _ => ?_
    exact if_neg fun e => hB ((drop12_eq_iff h B' n m B).1 e)
  · intro hj
    exact absurd (Finset.mem_univ _) hj
  · refine Finset.sum_congr rfl fun n _ => Finset.sum_congr rfl fun m _ => ?_
    exact if_pos ((drop12_eq_iff h B n m B).2 rfl)

end Cert.LibSumIdx

end
-- ==== Proof.BlockValue.lean ====
/-
  What one grid point's body stores in its output block, as a function of the point's three input blocks.
-/
import proofs.«400590_j2894807957766_4_alg».proof.Proof.Gen.KernelIdeal.Frame
import proofs.«400590_j2894807957766_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx

/-- The zero offsets of a rank-3 rectangle, as the constant function. -/
theorem hz3 : (![0, 0, 0] : Fin 3 → Nat) = fun _ => 0 :=
  funext fun a => match a with | ⟨0, _⟩ => rfl | ⟨1, _⟩ => rfl | ⟨2, _⟩ => rfl

/-- The zero offsets of a rank-2 rectangle, as the constant function. -/
theorem hz2 : (![0, 0] : Fin 2 → Nat) = fun _ => 0 :=
  funext fun a => match a with | ⟨0, _⟩ => rfl | ⟨1, _⟩ => rfl

/-- The one store covers the whole output block and every load reads a whole buffer: the block is the store's payload
    over the three input blocks themselves. -/
theorem out_eq (x0 x1 : Vec Ideal S16x256x32 .f32) (x2 : Vec Ideal S16x8x1 .f32) :
    out0_3 (F := Ideal) x0 x1 x2
      = k0_pay1 (k0_pay7 x0 x2) (k0_pay9 (k0_pay2 x2) (k0_pay4 x1) (k0_pay5 x1) (k0_pay8 x1))
          (k0_pay10 (k0_pay2 x2) (k0_pay3 x0) (k0_pay4 x1) (k0_pay6 x0 x1)) := by
  unfold out0_3
  rw [View.canon_unit_zero hz2]
  simp only [View.ld_unit_zero (S := S16x256x32) hz3, View.ld_unit_zero (S := S16x8x1) hz3]

/-- The squared norms of the rows: the reduction over the last axis of the elementwise square. -/
theorem pay3_apply (a : Vec Ideal S16x256x32 .f32) (bb : Fin 16) (n : Fin 256) :
    k0_pay3 (F := Ideal) a (ix2 bb n) = ∑ d : Fin 32, a (ix3 bb n d) * a (ix3 bb n d) := by
  unfold k0_pay3
  refine (Ideal.multiReduction_add_single _ _ _ _ _ _).trans ?_
  refine Finset.sum_congr rfl fun d _ => ?_
  have e : Facts₀.reduces_S16x256x32_S16x256.lift (ix2 bb n) d = ix3 bb n d := by
    funext ax; apply Fin.ext
    match ax with
    | ⟨0, _⟩ => rfl
    | ⟨1, _⟩ => rfl
    | ⟨2, _⟩ => rfl
  exact congrArg (fun i => a i * a i) e

/-- The slice keeps the first of the eight copies of each batch's bandwidth. -/
theorem pay2_apply (w8 : Vec Ideal S16x8x1 .f32) (bb : Fin 16) :
    k0_pay2 (F := Ideal) w8 (ix3 bb 0 0) = w8 (ix3 bb 0 0) := by
  unfold k0_pay2
  rw [shapeCast_self]
  refine extractStridedSlice_apply _ _ _ _ _ fun ax => ?_
  match ax with
  | ⟨0, _⟩ => exact (Nat.zero_add _).symm
  | ⟨1, _⟩ => rfl
  | ⟨2, _⟩ => rfl

/-! The four coordinates of the two operand indices of the batched product that are read off the output index: batch
    axis 0 on both sides, the row axis of each operand. -/

theorem lhs_0 (i : S16x256x256.Idx) (q : dot_S16x256x32_S16x256x32_S16x256x256_2_2_1_1_0_0.contr.Idx) :
    (dot_S16x256x32_S16x256x32_S16x256x256_2_2_1_1_0_0.lhsIdx i q 0).val = (i 0).val := by
  unfold DotDims.lhsIdx
  rw [dif_pos (show (0 : Fin S16x256x32.rank) ∈ dot_S16x256x32_S16x256x32_S16x256x256_2_2_1_1_0_0.lhsBatch by decide)]
  rfl
theorem lhs_1 (i : S16x256x256.Idx) (q : dot_S16x256x32_S16x256x32_S16x256x256_2_2_1_1_0_0.contr.Idx) :
    (dot_S16x256x32_S16x256x32_S16x256x256_2_2_1_1_0_0.lhsIdx i q 1).val = (i 1).val := by
  unfold DotDims.lhsIdx
  rw [dif_neg (show ¬(1 : Fin S16x256x32.rank) ∈ dot_S16x256x32_S16x256x32_S16x256x256_2_2_1_1_0_0.lhsBatch by decide),
    dif_pos (show (1 : Fin S16x256x32.rank) ∈ dot_S16x256x32_S16x256x32_S16x256x256_2_2_1_1_0_0.lhsNonContracting by decide)]
  rfl
theorem lhs_2 (i : S16x256x256.Idx) (q : dot_S16x256x32_S16x256x32_S16x256x256_2_2_1_1_0_0.contr.Idx) :
    (dot_S16x256x32_S16x256x32_S16x256x256_2_2_1_1_0_0.lhsIdx i q 2).val = (q ⟨0, by decide⟩).val :=
  dot_S16x256x32_S16x256x32_S16x256x256_2_2_1_1_0_0.lhsIdx_val_of_single rfl i q
theorem rhs_0 (i : S16x256x256.Idx) (q : dot_S16x256x32_S16x256x32_S16x256x256_2_2_1_1_0_0.contr.Idx) :
    (dot_S16x256x32_S16x256x32_S16x256x256_2_2_1_1_0_0.rhsIdx i q 0).val = (i 0).val := by
  unfold DotDims.rhsIdx
  rw [dif_pos (show (0 : Fin S16x256x32.rank) ∈ dot_S16x256x32_S16x256x32_S16x256x256_2_2_1_1_0_0.rhsBatch by decide)]
  rfl
theorem rhs_1 (i : S16x256x256.Idx) (q : dot_S16x256x32_S16x256x32_S16x256x256_2_2_1_1_0_0.contr.Idx) :
    (dot_S16x256x32_S16x256x32_S16x256x256_2_2_1_1_0_0.rhsIdx i q 1).val = (i 2).val := by
  unfold DotDims.rhsIdx
  rw [dif_neg (show ¬(1 : Fin S16x256x32.rank) ∈ dot_S16x256x32_S16x256x32_S16x256x256_2_2_1_1_0_0.rhsBatch by decide),
    dif_pos (show (1 : Fin S16x256x32.rank) ∈ dot_S16x256x32_S16x256x32_S16x256x256_2_2_1_1_0_0.rhsNonContracting by decide)]
  rfl
theorem rhs_2 (i : S16x256x256.Idx) (q : dot_S16x256x32_S16x256x32_S16x256x256_2_2_1_1_0_0.contr.Idx) :
    (dot_S16x256x32_S16x256x32_S16x256x256_2_2_1_1_0_0.rhsIdx i q 2).val = (q ⟨0, by decide⟩).val :=
  dot_S16x256x32_S16x256x32_S16x256x256_2_2_1_1_0_0.rhsIdx_val_of_single rfl i q

/-- The batched product of rows: entry (n, m) of batch bb is the inner product of row n of the left block with row m
    of the right block. -/
theorem pay6_apply (a b : Vec Ideal S16x256x32 .f32) (bb : Fin 16) (n m : Fin 256) :
    k0_pay6 (F := Ideal) a b (ix3 bb n m) = ∑ d : Fin 32, a (ix3 bb n d) * b (ix3 bb m d) := by
  unfold k0_pay6
  simp only [matmul]
  rw [Ideal.matmul_constant_zero_apply,
    ← Equiv.sum_comp (contrEquiv1 dot_S16x256x32_S16x256x32_S16x256x256_2_2_1_1_0_0 32 rfl rfl).symm]
  refine Finset.sum_congr rfl fun k _ => ?_
  have hk := contrEquiv1_symm_val dot_S16x256x32_S16x256x32_S16x256x256_2_2_1_1_0_0 32 rfl rfl k
  have el : dot_S16x256x32_S16x256x32_S16x256x256_2_2_1_1_0_0.lhsIdx (ix3 bb n m)
      ((contrEquiv1 dot_S16x256x32_S16x256x32_S16x256x256_2_2_1_1_0_0 32 rfl rfl).symm k) = ix3 bb n k :=
    funext fun ax => Fin.ext (by
      match ax with
      | ⟨0, _⟩ => exact lhs_0 _ _
      | ⟨1, _⟩ => exact lhs_1 _ _
      | ⟨2, _⟩ => exact (lhs_2 _ _).trans hk)
  have er : dot_S16x256x32_S16x256x32_S16x256x256_2_2_1_1_0_0.rhsIdx (ix3 bb n m)
      ((contrEquiv1 dot_S16x256x32_S16x256x32_S16x256x256_2_2_1_1_0_0 32 rfl rfl).symm k) = ix3 bb m k :=
    funext fun ax => Fin.ext (by
      match ax with
      | ⟨0, _⟩ => exact rhs_0 _ _
      | ⟨1, _⟩ => exact rhs_1 _ _
      | ⟨2, _⟩ => exact (rhs_2 _ _).trans hk)
  rw [el, er]

/-- A column of row values spread along the last axis: entry (bb, n, m) reads row value (bb, n). -/
theorem bc_row (v : FVec Ideal S16x256 .f32) (h1 : S16x256.ShapeCasts S16x256x1) (h2 : S16x256x1.Broadcasts S16x256x256)
    (bb : Fin 16) (n m : Fin 256) :
    broadcastTo S16x256x256 (shapeCast S16x256x1 v h1) h2 (ix3 bb n m) = v (ix2 bb n) := by
  refine (broadcastTo_apply _ h2 (ix3 bb n m) (ix3 bb n (0 : Fin 1)) fun ax => ?_).trans ?_
  · match ax with
    | ⟨0, _⟩ => rfl
    | ⟨1, _⟩ => rfl
    | ⟨2, _⟩ => rfl
  · refine shapeCast_apply v h1 _ (ix2 bb n) ?_
    rw [Shape.rowMajor_val_three, Shape.rowMajor_val_two]
    show bb.val * 256 + n.val = (bb.val * 256 + n.val) * 1 + 0
    omega

/-- A row of column values spread along the middle axis: entry (bb, n, m) reads column value (bb, m). -/
theorem bc_col (v : FVec Ideal S16x256 .f32) (h1 : S16x256.ShapeCasts S16x1x256) (h2 : S16x1x256.Broadcasts S16x256x256)
    (bb : Fin 16) (n m : Fin 256) :
    broadcastTo S16x256x256 (shapeCast S16x1x256 v h1) h2 (ix3 bb n m) = v (ix2 bb m) := by
  refine (broadcastTo_apply _ h2 (ix3 bb n m) (ix3 bb (0 : Fin 1) m) fun ax => ?_).trans ?_
  · match ax with
    | ⟨0, _⟩ => rfl
    | ⟨1, _⟩ => rfl
    | ⟨2, _⟩ => rfl
  · refine shapeCast_apply v h1 _ (ix2 bb m) ?_
    rw [Shape.rowMajor_val_three, Shape.rowMajor_val_two]
    show bb.val * 256 + m.val = (bb.val * 1 + 0) * 256 + m.val
    omega

/-- One value per batch spread over the batch's matrix. -/
theorem bc_w (v : FVec Ideal S16x1x1 .f32) (h : S16x1x1.Broadcasts S16x256x256) (bb : Fin 16) (n m : Fin 256) :
    broadcastTo S16x256x256 v h (ix3 bb n m) = v (ix3 bb 0 0) := by
  refine broadcastTo_apply _ h (ix3 bb n m) (ix3 bb (0 : Fin 1) (0 : Fin 1)) fun ax => ?_
  match ax with
  | ⟨0, _⟩ => rfl
  | ⟨1, _⟩ => rfl
  | ⟨2, _⟩ => rfl

/-- One kernel entry from the bandwidth and the three inner products: the squared distance through the inner
    products, clamped at zero before the root, the root clamped below, scaled by minus the bandwidth over 32, under the
    exponential. -/
def ent (w saa sbb sab : EReal) : EReal :=
  Ideal.exp (Ideal.div
    (-w * max (Ideal.sqrt (max ((saa + sbb) - Ideal.ofBits .f32 0x40000000#32 * sab) 0)) (Ideal.ofBits .f32 0x38D1B717#32))
    (Ideal.ofBits .f32 0x42000000#32))

/-- The specification's entry is that function of the three inner products. -/
theorem entry_eq (a b : Fin 256 → Fin 32 → EReal) (w : EReal) (n m : Fin 256) :
    Cert.Mmd.entry a b w n m
      = ent w (∑ d : Fin 32, a n d * a n d) (∑ d : Fin 32, b m d * b m d) (∑ d : Fin 32, a n d * b m d) := rfl

/-- The rows of the reduction over the last axis of a [16, 256, 256] block. -/
theorem lift_mat (bb : Fin 16) (n : Fin 256) (m : Fin (S16x256x256.size 2)) :
    Facts₀.reduces_S16x256x256_S16x256.lift (ix2 bb n) m = ix3 bb n m := by
  funext ax; apply Fin.ext
  match ax with
  | ⟨0, _⟩ => rfl
  | ⟨1, _⟩ => rfl
  | ⟨2, _⟩ => rfl

/-- The rows of the reduction over the last axis of a [16, 256] block. -/
theorem lift_vec (bb : Fin 16) (n : Fin (S16x256.size 1)) :
    Facts₀.reduces_S16x256_S16.lift (ix1 bb) n = ix2 bb n := by
  funext ax; apply Fin.ext
  match ax with
  | ⟨0, _⟩ => rfl
  | ⟨1, _⟩ => rfl

/-- The matrix sum of a batch, over arbitrary operands: the double sum, row by row, of the entries made from the
    batch's bandwidth, the row's and the column's squared norms and their inner product. -/
theorem pay10_apply (v4 : FVec Ideal S16x1x1 .f32) (v6 v8 : FVec Ideal S16x256 .f32) (v11 : FVec Ideal S16x256x256 .f32)
    (bb : Fin 16) :
    k0_pay10 (F := Ideal) v4 v6 v8 v11 (ix1 bb)
      = ∑ n : Fin 256, ∑ m : Fin 256, ent (v4 (ix3 bb 0 0)) (v6 (ix2 bb n)) (v8 (ix2 bb m)) (v11 (ix3 bb n m)) := by
  unfold k0_pay10
  refine (Ideal.multiReduction_add_single _ _ _ _ _ _).trans ?_
  refine Finset.sum_congr rfl fun (n : Fin 256) _ => ?_
  refine (congrArg _ (lift_vec bb n)).trans ?_
  refine (Ideal.multiReduction_add_single _ _ _ _ _ _).trans ?_
  refine Finset.sum_congr rfl fun (m : Fin 256) _ => ?_
  refine (congrArg _ (lift_mat bb n m)).trans ?_
  show Ideal.exp (Ideal.div
      (broadcastTo S16x256x256 (subf (broadcast S16x1x1 (Scalar.ofBits (F := Ideal) .f32 0x00000000#32)) v4) _ (ix3 bb n m)
        * max (Ideal.sqrt (max
            ((broadcastTo S16x256x256 (shapeCast S16x256x1 v6 _) _ (ix3 bb n m)
              + broadcastTo S16x256x256 (shapeCast S16x1x256 v8 _) _ (ix3 bb n m))
             - Scalar.ofBits (F := Ideal) .f32 0x40000000#32 * v11 (ix3 bb n m))
            (Scalar.ofBits (F := Ideal) .f32 0x00000000#32)))
          (Scalar.ofBits (F := Ideal) .f32 0x38D1B717#32))
      (Scalar.ofBits (F := Ideal) .f32 0x42000000#32)) = _
  rw [bc_row, bc_col, bc_w]
  show Ideal.exp (Ideal.div
      ((Ideal.ofBits .f32 0x00000000#32 - v4 (ix3 bb 0 0))
        * max (Ideal.sqrt (max ((v6 (ix2 bb n) + v8 (ix2 bb m)) - Ideal.ofBits .f32 0x40000000#32 * v11 (ix3 bb n m))
            (Ideal.ofBits .f32 0x00000000#32)))
          (Ideal.ofBits .f32 0x38D1B717#32))
      (Ideal.ofBits .f32 0x42000000#32)) = _
  rw [Ideal.ofBits_zero_f32, zero_sub]
  rfl

/-- The matrix sum of a batch over two blocks of clouds and the block of bandwidths: the double sum of the
    specification's entries of that batch. -/
theorem mat_apply (a b : Vec Ideal S16x256x32 .f32) (w8 : Vec Ideal S16x8x1 .f32) (bb : Fin 16) :
    k0_pay10 (F := Ideal) (k0_pay2 w8) (k0_pay3 a) (k0_pay3 b) (k0_pay6 a b) (ix1 bb)
      = ∑ n : Fin 256, ∑ m : Fin 256,
          Cert.Mmd.entry (fun n d => a (ix3 bb n d)) (fun n d => b (ix3 bb n d)) (w8 (ix3 bb 0 0)) n m := by
  rw [pay10_apply]
  refine Finset.sum_congr rfl fun n _ => Finset.sum_congr rfl fun m _ => ?_
  rw [entry_eq, pay2_apply, pay3_apply, pay3_apply, pay6_apply]

/-- Over the word of 65536 it is the specification's mean of that batch. -/
theorem mean_apply (a b : Vec Ideal S16x256x32 .f32) (w8 : Vec Ideal S16x8x1 .f32) (bb : Fin 16) :
    divf (k0_pay10 (F := Ideal) (k0_pay2 w8) (k0_pay3 a) (k0_pay3 b) (k0_pay6 a b))
        (broadcast S16 (Scalar.ofBits (F := Ideal) .f32 0x47800000#32)) (ix1 bb)
      = Cert.Mmd.mean (fun n d => a (ix3 bb n d)) (fun n d => b (ix3 bb n d)) (w8 (ix3 bb 0 0)) := by
  show Ideal.div (k0_pay10 (F := Ideal) (k0_pay2 w8) (k0_pay3 a) (k0_pay3 b) (k0_pay6 a b) (ix1 bb))
      (Ideal.ofBits .f32 0x47800000#32) = _
  rw [mat_apply]
  rfl

/-- The first self mean is computed by the same operations as the cross sum, on the first block twice. -/
theorem pay7_eq (a : Vec Ideal S16x256x32 .f32) (w8 : Vec Ideal S16x8x1 .f32) :
    k0_pay7 (F := Ideal) a w8
      = divf (k0_pay10 (F := Ideal) (k0_pay2 w8) (k0_pay3 a) (k0_pay3 a) (k0_pay6 a a))
          (broadcast S16 (Scalar.ofBits (F := Ideal) .f32 0x47800000#32)) := rfl

/-- The second self mean likewise, on the second block twice. -/
theorem pay9_eq (b : Vec Ideal S16x256x32 .f32) (w8 : Vec Ideal S16x8x1 .f32) :
    k0_pay9 (F := Ideal) (k0_pay2 w8) (k0_pay4 b) (k0_pay5 b) (k0_pay8 b)
      = divf (k0_pay10 (F := Ideal) (k0_pay2 w8) (k0_pay3 b) (k0_pay3 b) (k0_pay6 b b))
          (broadcast S16 (Scalar.ofBits (F := Ideal) .f32 0x47800000#32)) := rfl

/-- The cross sum's squared norms of the second block are those of the first block's kind. -/
theorem cross_eq (a b : Vec Ideal S16x256x32 .f32) (w8 : Vec Ideal S16x8x1 .f32) :
    k0_pay10 (F := Ideal) (k0_pay2 w8) (k0_pay3 a) (k0_pay4 b) (k0_pay6 a b)
      = k0_pay10 (F := Ideal) (k0_pay2 w8) (k0_pay3 a) (k0_pay3 b) (k0_pay6 a b) := rfl

/-- A select on "lane h is lane 0", for a lane below 128, is the `if` on h. -/
theorem lane_select {α : Type} (h : Nat) (hh : h < 128) (A B : α) :
    Scalar.select (IntOp.cmpi .eq (BitVec.ofNat 32 h) 0#32) A B = if h = 0 then A else B := by
  by_cases h0 : h = 0
  · subst h0; rfl
  · rw [if_neg h0]
    have hne : BitVec.ofNat 32 h ≠ 0#32 := by
      intro e
      have := congrArg BitVec.toNat e
      simp only [BitVec.toNat_ofNat] at this
      omega
    have hb : (BitVec.ofNat 32 h == 0#32) = false := beq_eq_false_iff_ne.mpr hne
    show Scalar.select (BitVec.ofBool (BitVec.ofNat 32 h == 0#32)) A B = B
    rw [hb]
    exact select_zero A B

/-- The one row of a [1, 16] block, entry by entry. -/
theorem lift_s (h2 : S1x16.Reduces [1] S1) (b : Fin 16) : h2.lift (ix1 (0 : Fin 1)) b = ix2 (0 : Fin 1) b := by
  funext ax; apply Fin.ext
  match ax with
  | ⟨0, _⟩ => rfl
  | ⟨1, _⟩ => rfl

/-- The scalar the body extracts: the sum of the 16 entries of a vector, taken as the one row of a [1, 16] block. -/
theorem scalar_apply (v : FVec Ideal S16 .f32) (h1 : S16.ShapeCasts S1x16) (h2 : S1x16.Reduces [1] S1)
    (hφ : FKind.Formats .f32) (hacc : 0x00000000#32 = FKind.add.neutral .f32 hφ) (h3 : S1.ShapeCasts S1x1)
    (h4 : ∀ a, (![0, 0] : Fin 2 → Nat) a < S1x1.size a) :
    extractAt ![0, 0] (shapeCast S1x1 (multiReduction (F := Ideal) .add [1] S1 (shapeCast S1x16 v h1) 0x00000000#32 h2 hφ hacc) h3) h4
      = ∑ b : Fin 16, v (ix1 b) := by
  have e : (fun a => ⟨(![0, 0] : Fin 2 → Nat) a, h4 a⟩ : S1x1.Idx) = ix2 (0 : Fin 1) (0 : Fin 1) :=
    funext fun a => match a with | ⟨0, _⟩ => rfl | ⟨1, _⟩ => rfl
  unfold extractAt
  refine (congrArg _ e).trans ?_
  refine (shapeCast_a_1a_apply _ h3 0 0).trans ?_
  refine (Ideal.multiReduction_add_single _ _ _ _ _ _).trans ?_
  refine Finset.sum_congr rfl fun (b : Fin 16) _ => ?_
  refine (congrArg _ (lift_s h2 b)).trans ?_
  exact shapeCast_a_1a_apply v h1 0 b

/-- The store's payload at lane j: lane 0 holds the sum over the 16 batches of the two self means minus twice the
    cross sum over the word of 65536, every other lane zero. -/
theorem pay1_apply (v35 v59 v81 : FVec Ideal S16 .f32) (j : S1x128.Idx) :
    k0_pay1 (F := Ideal) v35 v59 v81 j
      = if (j 1).val = 0 then
          ∑ b : Fin 16, ((v35 (ix1 b) + v59 (ix1 b))
            - Ideal.ofBits .f32 0x40000000#32 * Ideal.div (v81 (ix1 b)) (Ideal.ofBits .f32 0x47800000#32))
        else 0 := by
  unfold k0_pay1
  show Scalar.select (IntOp.cmpi .eq (iota .tc S1x128 32 [1] _ j) 0#32)
      (extractAt ![0, 0] (shapeCast S1x1 (multiReduction (F := Ideal) .add [1] S1
        (shapeCast S1x16 (subf (addf v35 v59) (mulf (broadcast S16 (Scalar.ofBits (F := Ideal) .f32 0x40000000#32))
          (divf v81 (broadcast S16 (Scalar.ofBits (F := Ideal) .f32 0x47800000#32))))) _) 0x00000000#32 _ _ _) _) _)
      (Scalar.ofBits (F := Ideal) .f32 0x00000000#32) = _
  rw [iota_single_apply, lane_select _ (idx2_lt1 j)]
  by_cases hj : (j 1).val = 0
  · rw [if_pos hj, if_pos hj]
    refine (scalar_apply _ _ _ _ _ _ _).trans ?_
    rfl
  · rw [if_neg hj, if_neg hj]; exact Ideal.ofBits_zero_f32

/-- The body's one store: lane 0 of the 128-lane output block holds the sum of the block's 16 batches' values, every other lane zero. -/
theorem block_value (x0 x1 : Vec Ideal S16x256x32 .f32) (x2 : Vec Ideal S16x8x1 .f32) (j : S1x128.Idx) :
    out0_3 (F := Ideal) x0 x1 x2 j
      = if (j 1).val = 0 then
          ∑ b : Fin 16, Cert.Mmd.perBatch (fun n d => x0 (ix3 b n d)) (fun n d => x1 (ix3 b n d)) (x2 (ix3 b 0 0))
        else 0 := by
  rw [out_eq, pay1_apply]
  refine if_congr Iff.rfl (Finset.sum_congr rfl fun b _ => ?_) rfl
  rw [pay7_eq, pay9_eq, cross_eq, mean_apply, mean_apply, mat_apply]
  rfl

end Cert.KernelIdeal.BlockValue

end
-- ==== Proof.ArrayValue.lean ====
/-
  The kernel's result as a function of its three arguments.

  The one pallas_call runs at two grid points. Point `t` reads batches `16 t … 16 t + 15` of `x`, of `y` and of the
  bandwidths (the latter through a host broadcast of `w` from [32, 1, 1] to [32, 8, 1], of which the body keeps row 0) and
  writes lanes `128 t … 128 t + 127` of a [1, 256] row: the sum of its 16 batches' values at the first of them, zero at the
  others. The two blocks tile the row, so after the run the row is that function of the arguments everywhere. The host then
  sums the row and divides by 32: the zeros add nothing, the two half sums add up to the sum over the 32 batches.
-/
import proofs.«400590_j2894807957766_4_alg».proof.Proof.Gen.KernelIdeal.Frame
import proofs.«400590_j2894807957766_4_alg».proof.Proof.BlockValue
import proofs.«400590_j2894807957766_4_alg».proof.Proof.Spec
import proofs.«400590_j2894807957766_4_alg».proof.Proof.LaneSum
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

noncomputable section

open scoped BigOperators

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arguments by coordinates -/

/-- `x` on core `c`: batch, point, dimension. -/
abbrev xs (c : Dev nD) : Fin 32 → Fin 256 → Fin 32 → EReal :=
  fun B n d => (m ((c : Thread nD τ).loc main_arg0) : FVec Ideal S32x256x32 .f32) (ix3 B n d)
/-- `y` on core `c`. -/
abbrev ys (c : Dev nD) : Fin 32 → Fin 256 → Fin 32 → EReal :=
  fun B n d => (m ((c : Thread nD τ).loc main_arg1) : FVec Ideal S32x256x32 .f32) (ix3 B n d)
/-- The bandwidths on core `c`, one per batch. -/
abbrev ws (c : Dev nD) : Fin 32 → EReal :=
  fun B => (m ((c : Thread nD τ).loc main_arg2) : FVec Ideal S32x1x1 .f32) (ix3 B 0 0)

/-- The sum of the values of the 16 batches of half `h`. -/
def halfSum (c : Dev nD) (h : Fin 2) : EReal :=
  ∑ b : Fin 16, Cert.Mmd.perBatch (xs m c (Cert.Mmd.batchOf h b)) (ys m c (Cert.Mmd.batchOf h b)) (ws m c (Cert.Mmd.batchOf h b))

/-- The [1, 256] row the region leaves: a half's sum at the half's first lane, zero at every other lane. -/
def row (c : Dev nD) : FVec Ideal S1x256 .f32 :=
  fun i => if (i 1).val % 128 = 0 then halfSum m c (Cert.Mmd.halfOf (i 1)) else 0

/-! ## The grid's index maps -/

/-- The printed index maps, decided over the two points: the three inputs move along the batch axis with the point,
    the output along the lanes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = t.val ∧ t.val < 2 :=
  (by decide +kernel : ∀ t : Fin grid0.N, _)

/-- A grid point as a half of the batches. -/
def halfAt (t : Fin cfg0.N) : Fin 2 := ⟨t.val, (idx_facts t).2.2.2.2.2.2.2.2.2.2.2⟩

/-! ## The input blocks read off the arguments -/

/-- Entry `(b, n, d)` of point `t`'s block of `x` is `x` at batch `16 t + b`. -/
theorem xblk (c : Dev nD) (t : Fin cfg0.N) (b : Fin 16) (n : Fin 256) (d : Fin 32) :
    iblk m c 0 t (ix3 b n d) = xs m c (Cert.Mmd.batchOf (halfAt t) b) n d := by
  obtain ⟨e0, e1, e2, -⟩ := idx_facts t
  show V m c main_arg0 (((cfg0.win 0).blk t).view.emb (ix3 b n d)) = _
  rw [V_main_arg0]
  refine congrArg _ (funext fun a => Fin.ext ?_)
  match a with
  | ⟨0, _⟩ => show win0_0.index t (0 : Fin 3) * 16 + 1 * b.val = t.val * 16 + b.val; omega
  | ⟨1, _⟩ => show win0_0.index t (1 : Fin 3) * 256 + 1 * n.val = n.val; omega
  | ⟨2, _⟩ => show win0_0.index t (2 : Fin 3) * 32 + 1 * d.val = d.val; omega

/-- Entry `(b, n, d)` of point `t`'s block of `y` is `y` at batch `16 t + b`. -/
theorem yblk (c : Dev nD) (t : Fin cfg0.N) (b : Fin 16) (n : Fin 256) (d : Fin 32) :
    iblk m c 1 t (ix3 b n d) = ys m c (Cert.Mmd.batchOf (halfAt t) b) n d := by
  obtain ⟨-, -, -, e0, e1, e2, -⟩ := idx_facts t
  show V m c main_arg1 (((cfg0.win 1).blk t).view.emb (ix3 b n d)) = _
  rw [V_main_arg1]
  refine congrArg _ (funext fun a => Fin.ext ?_)
  match a with
  | ⟨0, _⟩ => show win0_1.index t (0 : Fin 3) * 16 + 1 * b.val = t.val * 16 + b.val; omega
  | ⟨1, _⟩ => show win0_1.index t (1 : Fin 3) * 256 + 1 * n.val = n.val; omega
  | ⟨2, _⟩ => show win0_1.index t (2 : Fin 3) * 32 + 1 * d.val = d.val; omega

/-- The third window's array is the host's broadcast of `w` along a new axis of 8. -/
theorem V_main_v0 (c : Dev nD) :
    (V m c main_v0 : FVec Ideal S32x8x1 .f32)
      = broadcastInDim S32x8x1 ![0, 1, 2] bcast_S32x1x1_S32x8x1_0_1_2 (m ((c : Thread nD τ).loc main_arg2) : FVec Ideal S32x1x1 .f32) := by
  show StableHlo.after hostOps0 (fun b => m (c, b)) (Proc.devRef .tc main_v0) = _
  after_results

/-- Entry `(b, 0, 0)` of point `t`'s block of the broadcast bandwidths is the bandwidth of batch `16 t + b`. -/
theorem wblk (c : Dev nD) (t : Fin cfg0.N) (b : Fin 16) :
    iblk m c 2 t (ix3 b 0 0) = ws m c (Cert.Mmd.batchOf (halfAt t) b) := by
  obtain ⟨-, -, -, -, -, -, e0, e1, e2, -⟩ := idx_facts t
  show V m c main_v0 (((cfg0.win 2).blk t).view.emb (ix3 b 0 0)) = _
  rw [V_main_v0]
  refine broadcastInDim_apply _ bcast_S32x1x1_S32x8x1_0_1_2 _ _ (ix3 (Cert.Mmd.batchOf (halfAt t) b) 0 0) (fun a => ?_)
  match a with
  | ⟨0, _⟩ => show t.val * 16 + b.val = win0_2.index t (0 : Fin 3) * 16 + 1 * b.val; omega
  | ⟨1, _⟩ => rfl
  | ⟨2, _⟩ => rfl

/-! ## From the blocks to the row -/

/-- What point `t` writes back is block `t` of `row`. -/
theorem flushed_eq (c : Dev nD) (t : Fin cfg0.N) :
    (dats m 0 c).flushed 3 t = ((cfg0.win 3).blk t).view.read (Elt Ideal) (row m c) := by
  obtain ⟨-, -, -, -, -, -, -, -, -, e0, e1, e2⟩ := idx_facts t
  show (cfg0.win 3).cut (grid0.coords t) ((dats m 0 c).after 3 t) = _
  rw [after0_3]
  funext j
  show out0_3 (iblk m c 0 t) (iblk m c 1 t) (iblk m c 2 t) j = row m c (((cfg0.win 3).blk t).view.emb j)
  refine (Cert.KernelIdeal.BlockValue.block_value (iblk m c 0 t) (iblk m c 1 t) (iblk m c 2 t) j).trans ?_
  have hj : (j 1).val < 128 := (j 1).isLt
  have hemb : ((((cfg0.win 3).blk t).view.emb j) 1).val = t.val * 128 + (j 1).val := by
    show win0_3.index t (1 : Fin 2) * 128 + 1 * (j 1).val = _
    omega
  unfold row
  have hmod : ((((cfg0.win 3).blk t).view.emb j) 1).val % 128 = 0 ↔ (j 1).val = 0 := by
    rw [hemb]; omega
  have hhalf : Cert.Mmd.halfOf ((((cfg0.win 3).blk t).view.emb j) 1) = halfAt t := by
    apply Fin.ext
    show ((((cfg0.win 3).blk t).view.emb j) 1).val / 128 = t.val
    rw [hemb]; omega
  rw [hhalf]
  refine if_congr hmod.symm ?_ rfl
  unfold halfSum
  exact Finset.sum_congr rfl fun b _ => by
    rw [← wblk m c t b]
    exact congrArg₂ (fun a b' => Cert.Mmd.perBatch a b' _) (funext fun n => funext fun d => xblk m c t b n d)
      (funext fun n => funext fun d => yblk m c t b n d)

/-- An index of the row is in point `t`'s block iff each coordinate is in the block's range on its axis. -/
theorem mem_blk (t : Fin cfg0.N) (i : S1x256.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v1).slice (win0_3.rect t)).set ↔ _
  rw [View.set_slice_whole, Rect.mem_set_unit]
  exact Iff.rfl

/-- Every lane of the row lies in the block of the point of its half. -/
theorem cover (i : S1x256.Idx) : ∃ t : Fin cfg0.N, (cfg0.win 3).flush t = true ∧ i ∈ ((cfg0.win 3).blk t).view.set := by
  have hi0 : (i 0).val < 1 := (i 0).isLt
  have hi1 : (i 1).val < 256 := (i 1).isLt
  refine ⟨⟨(i 1).val / 128, by rw [show cfg0.N = grid0.N from rfl, N_0]; omega⟩, flush0_3 _, ?_⟩
  rw [mem_blk]
  obtain ⟨-, -, -, -, -, -, -, -, -, e0, e1, -⟩ := idx_facts ⟨(i 1).val / 128, by rw [show cfg0.N = grid0.N from rfl, N_0]; omega⟩
  intro a
  match a with
  | ⟨0, _⟩ =>
    show win0_3.index _ (0 : Fin 2) * 1 ≤ (i 0).val ∧ (i 0).val < win0_3.index _ (0 : Fin 2) * 1 + 1
    rw [e0]; omega
  | ⟨1, _⟩ =>
    show win0_3.index _ (1 : Fin 2) * 128 ≤ (i 1).val ∧ (i 1).val < win0_3.index _ (1 : Fin 2) * 128 + 128
    rw [e1]; show (i 1).val / 128 * 128 ≤ (i 1).val ∧ (i 1).val < (i 1).val / 128 * 128 + 128; omega

/-- After the region the output row is `row`. -/
theorem final (c : Dev nD) : (dats m 0 c).arrAt 3 cfg0.N = row m c :=
  (dats m 0 c).arrAt_eq_of_cover 3 (row m c) (fun t _ => flushed_eq m c t) cover

/-! ## The row's sum, and the host's tail -/

/-- The row sums to the sum of the 32 batches' values. -/
theorem sum_row (c : Dev nD) :
    ∑ i : S1x256.Idx, row m c i = ∑ B : Fin 32, Cert.Mmd.perBatch (xs m c B) (ys m c B) (ws m c B) := by
  rw [sum_idx2, Fin.sum_univ_one]
  show (∑ l : Fin 256, if l.val % 128 = 0 then halfSum m c (Cert.Mmd.halfOf l) else 0) = _
  rw [Cert.Mmd.sum_lanes, ← Cert.Mmd.sum_batchOf, Fin.sum_univ_two]
  rfl

/-- The host's sum of the row and its quotient by 32 are the batch mean. -/
theorem tail_eq (c : Dev nD) :
    Host.divf (Host.reduceAdd (F := Ideal) (row m c) (constant S_ .f32 0x00000000#32) reducesTo_S1x256_S_d0_1 h_S_)
        (constant (F := Ideal) S_ .f32 0x42000000#32)
      = fun _ => Cert.Mmd.total (xs m c) (ys m c) (ws m c) := by
  funext i
  show Ideal.div (Ideal.hostReduceAdd reducesTo_S1x256_S_d0_1 (row m c) (Ideal.ofBits .f32 0x00000000#32) i) (Ideal.ofBits .f32 0x42000000#32) = _
  rw [Ideal.hostReduceAdd_total reducesTo_S1x256_S_d0_1 (fun b => b.elim0), Ideal.ofBits_zero_f32, zero_add, sum_row]
  rfl

/-- The result buffer after the whole program, from the frame run's account of the host operations after the region. -/
theorem result_eq (c : Dev nD) :
    Pipeline.afterTail₀ cfgs (dats m) 0 (V0 m) [hostOps1] c main_v3 = fun _ => Cert.Mmd.total (xs m c) (ys m c) (ws m c) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v1) = row m c from
    (Pipeline.withArrays_arr spec0 launch0.win.arr_inj c _ _ 3).trans (final m c)]
  exact tail_eq m c

/-! ## The run -/

/-- Every fair execution of the kernel's program ends with the result at the batch mean of the arguments, the arguments unchanged. -/
theorem run : θ_run defs (onTc (τ := τ) (main (F := Ideal))) ⟨m, fun _ => 0, ρ⟩ fun r => ∀ c : Dev nD,
      r.2.mem ((c.tc : Thread nD τ).loc main_v3) = (fun _ => Cert.Mmd.total (xs m c) (ys m c) (ws m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v3 (Pipeline.mem_restRefs_of main_v3 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.ArrValue

end
-- ==== Proof.RefValue.lean ====
/-
  The reference's result, read stage by stage, is the batch mean of `Cert.Mmd.total` of its three arguments.
-/
import proofs.«400590_j2894807957766_4_alg».proof.Proof.Gen.ReferenceIdeal.Read
import proofs.«400590_j2894807957766_4_alg».proof.Proof.Spec
import proofs.«400590_j2894807957766_4_alg».proof.Proof.LibSumIdx
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.LibSumIdx

/-! ## The composed index functions at (B, n, m) -/

/-- The bandwidth is read at (B, 0, 0). -/
theorem idx_w (B : Fin 32) (n m : Fin 256) : idx_main_v67 (ix3 B n m) = ix3 B 0 0 :=
  funext fun a => Fin.ext (by match a with | ⟨0, _⟩ => rfl | ⟨1, _⟩ => rfl | ⟨2, _⟩ => rfl)

/-- The row norm of the left cloud is read along row n. -/
theorem idx_aa (B : Fin 32) (n m : Fin 256) (k : Fin 32) :
    idx_main_v49 (idx_main_v53 (idx_main_v55 (ix3 B n m))) k = ix3 B n k :=
  funext fun a => Fin.ext (by match a with | ⟨0, _⟩ => rfl | ⟨1, _⟩ => rfl | ⟨2, _⟩ => rfl)

/-- The row norm of the right cloud is read along row m. -/
theorem idx_bb (B : Fin 32) (n m : Fin 256) (k : Fin 32) :
    idx_main_v51 (idx_main_v54 (idx_main_v56 (ix3 B n m))) k = ix3 B m k :=
  funext fun a => Fin.ext (by match a with | ⟨0, _⟩ => rfl | ⟨1, _⟩ => rfl | ⟨2, _⟩ => rfl)

/-- The inner product reads the left cloud along row n … -/
theorem idx_l (B : Fin 32) (n m : Fin 256) (k : Fin 32) : lidx_main_v52 (ix3 B n m) k = ix3 B n k :=
  funext fun a => Fin.ext (by match a with | ⟨0, _⟩ => rfl | ⟨1, _⟩ => rfl | ⟨2, _⟩ => rfl)

/-- … and the right cloud along row m. -/
theorem idx_r (B : Fin 32) (n m : Fin 256) (k : Fin 32) : ridx_main_v52 (ix3 B n m) k = ix3 B m k :=
  funext fun a => Fin.ext (by match a with | ⟨0, _⟩ => rfl | ⟨1, _⟩ => rfl | ⟨2, _⟩ => rfl)

/-! ## One entry of the cross kernel matrix -/

/-- The last elementwise stage of the chain of two arbitrary clouds a, b, read at (B, n, m), is the kernel-matrix
    entry of batch B's two clouds at that batch's bandwidth. -/
theorem v71_entry (a b : (⟨S32x256x32, .f32⟩ : BufTy).Contents (Elt Ideal)) (w : (⟨S32x1x1, .f32⟩ : BufTy).Contents (Elt Ideal))
    (B : Fin 32) (n m : Fin 256) :
    val_main_v71 (F := Ideal) a b w (ix3 B n m)
      = Cert.Mmd.entry (fun n d => a (ix3 B n d)) (fun n d => b (ix3 B n d)) (w (ix3 B 0 0)) n m := by
  simp only [val_main_v71_apply, val_main_v70_apply, val_main_v69_apply, val_main_cst_16_apply, val_main_v68_apply,
    val_main_v67_apply, val_main_v66_apply, val_main_v65_apply, val_main_v64_apply, val_main_cst_15_apply,
    val_main_v63_apply, val_main_v62_apply, val_main_v61_apply, val_main_cst_14_apply, val_main_v60_apply,
    val_main_v59_apply, val_main_v58_apply, val_main_cst_13_apply, val_main_v52_apply, val_main_v57_apply,
    val_main_v55_apply, val_main_v53_apply, val_main_v49_apply, val_main_cst_11_apply, val_main_v56_apply,
    val_main_v54_apply, val_main_v51_apply, val_main_cst_12_apply, val_main_v48_apply, val_main_v50_apply]
  simp only [idx_w, idx_aa, idx_bb, idx_l, idx_r, Ideal.hostUnary_exp_def, Ideal.hostDivf_def, Ideal.mulf_def,
    Ideal.hostNegf_def, Ideal.negf_def, Ideal.maximumf_def, Ideal.hostUnary_sqrt_def, Ideal.subf_def, Ideal.addf_def,
    Ideal.ofBits_def, Ideal.ofBits_zero_f32, zero_add]
  rfl

/-! ## The three matrix sums -/

/-- The cross matrix of two arbitrary clouds summed over its two axes, at batch B: the double sum of the entries. -/
theorem v79_sum (a b : (⟨S32x256x32, .f32⟩ : BufTy).Contents (Elt Ideal)) (w : (⟨S32x1x1, .f32⟩ : BufTy).Contents (Elt Ideal))
    (B : Fin 32) :
    val_main_v79 (F := Ideal) a b w (ix1 B)
      = ∑ n : Fin 256, ∑ m : Fin 256,
          Cert.Mmd.entry (fun n d => a (ix3 B n d)) (fun n d => b (ix3 B n d)) (w (ix3 B 0 0)) n m := by
  unfold val_main_v79
  simp only [Host.reduceAdd, Ideal.hostReduceAdd_def]
  refine (hostReduceAdd_d12 _ _ _ B).trans ?_
  rw [val_main_cst_21_apply, Ideal.ofBits_def, Ideal.ofBits_zero_f32, zero_add]
  exact Finset.sum_congr rfl fun n _ => Finset.sum_congr rfl fun m _ => v71_entry a b w B n m

/-- Its mean: the sum over the word of 65536. -/
theorem v81_mean (a b : (⟨S32x256x32, .f32⟩ : BufTy).Contents (Elt Ideal)) (w : (⟨S32x1x1, .f32⟩ : BufTy).Contents (Elt Ideal))
    (B : Fin 32) :
    val_main_v81 (F := Ideal) a b w (ix1 B)
      = Cert.Mmd.mean (fun n d => a (ix3 B n d)) (fun n d => b (ix3 B n d)) (w (ix3 B 0 0)) := by
  rw [val_main_v81_apply, val_main_v80_apply, val_main_cst_22_apply, v79_sum]
  rfl

/-! ## The two self matrices are the cross matrix of a cloud with itself

The three chains are the same operations with the same literal words, so the self means are the cross mean at equal
arguments. -/

theorem v74_eq (x : (⟨S32x256x32, .f32⟩ : BufTy).Contents (Elt Ideal)) (w : (⟨S32x1x1, .f32⟩ : BufTy).Contents (Elt Ideal)) :
    val_main_v74 (F := Ideal) x w = val_main_v81 (F := Ideal) x x w := rfl

theorem v77_eq (y : (⟨S32x256x32, .f32⟩ : BufTy).Contents (Elt Ideal)) (w : (⟨S32x1x1, .f32⟩ : BufTy).Contents (Elt Ideal)) :
    val_main_v77 (F := Ideal) y w = val_main_v81 (F := Ideal) y y w := rfl

/-! ## One batch's value, and the result -/

/-- The combined stage at batch B is that batch's value. -/
theorem v84_perBatch (x y : (⟨S32x256x32, .f32⟩ : BufTy).Contents (Elt Ideal)) (w : (⟨S32x1x1, .f32⟩ : BufTy).Contents (Elt Ideal))
    (B : Fin 32) :
    val_main_v84 (F := Ideal) x y w (ix1 B)
      = Cert.Mmd.perBatch (fun n d => x (ix3 B n d)) (fun n d => y (ix3 B n d)) (w (ix3 B 0 0)) := by
  rw [val_main_v84_apply, val_main_v78_apply, val_main_v83_apply, val_main_v82_apply, val_main_cst_23_apply,
    v74_eq, v77_eq, v81_mean, v81_mean, v81_mean]
  rfl

/-- The reference's last stage is the constant function at `Cert.Mmd.total` of the argument arrays read by coordinates. -/
theorem ref_value (x y : (⟨S32x256x32, .f32⟩ : BufTy).Contents (Elt Ideal)) (w : (⟨S32x1x1, .f32⟩ : BufTy).Contents (Elt Ideal)) :
    val_main_v86 (F := Ideal) x y w
      = fun _ => Cert.Mmd.total (fun B n d => x (ix3 B n d)) (fun B n d => y (ix3 B n d)) (fun B => w (ix3 B 0 0)) := by
  funext i
  show val_main_v86 (F := Ideal) x y w i = Cert.Mmd.total _ _ _
  rw [val_main_v86_apply, val_main_v85_apply, val_main_cst_25_apply, val_main_cst_24_apply, Ideal.hostDivf_def,
    Ideal.ofBits_def, Ideal.ofBits_def, Ideal.ofBits_zero_f32, zero_add]
  unfold Cert.Mmd.total
  refine congrArg (fun s => Ideal.div s (Ideal.ofBits .f32 0x42000000#32)) ?_
  exact (sum_idx1 _).trans (Finset.sum_congr rfl fun B _ => v84_perBatch x y w B)

end Cert.ReferenceIdeal.RefValue

end
-- ==== Proof.lean ====
/-
  The certificate of `Cert.Claim`: the Pallas kernel and its jnp reference compute the same batch mean of a maximum mean
  discrepancy with a distance kernel, as extended reals.

  Per batch, both programs form the three 256 × 256 matrices `exp (-w · max (√(max (|aₙ|² + |b_m|² − 2 aₙ·b_m) 0)) ε / 32)`
  for (a, b) = (x, x), (y, y), (x, y), average each, and take the first two averages minus twice the third; the result is the
  mean of that over the 32 batches (`Cert.Mmd.total`, Proof/Spec.lean). They differ only in how sums are grouped: the
  reference sums a matrix over both axes at once and the batches in one sum of 32; the kernel sums a matrix row by row, runs
  on two grid points of 16 batches each, writes each point's sum of 16 into lane 0 of a 128-lane block of zeros, and the host
  sums the 256 lanes. Sums of extended reals may be regrouped and reordered freely and adding zero changes nothing, at the
  infinities too, so the precondition (finite inputs) is never opened. The kernel negates the bandwidth as `0 − w`, the
  reference as `−w`: the same extended real.

  Proof/RefValue.lean reads the reference's stages down to `total`; Proof/BlockValue.lean reads the kernel body's one store;
  Proof/ArrayValue.lean carries the blocks to the output row and through the host's sum and quotient; Proof/LaneSum.lean holds
  the two re-indexings of finite sums, Proof/LibSumIdx.lean sums over index sets by coordinates and the host's sum over two axes. The three frames are the generated ones (the reference's is its generated run with the
  result dropped); the idealization rewrote nothing, so `preserves` is trivial.
-/
import proofs.«400590_j2894807957766_4_alg».proof.Defs
import proofs.«400590_j2894807957766_4_alg».proof.Proof.Gen.Kernel
import proofs.«400590_j2894807957766_4_alg».proof.Proof.Gen.Kernel.Skeleton
import proofs.«400590_j2894807957766_4_alg».proof.Proof.Gen.Kernel.Launch
import proofs.«400590_j2894807957766_4_alg».proof.Proof.Gen.Kernel.Points
import proofs.«400590_j2894807957766_4_alg».proof.Proof.Gen.Kernel.Frame
import proofs.«400590_j2894807957766_4_alg».proof.Proof.Gen.KernelIdeal
import proofs.«400590_j2894807957766_4_alg».proof.Proof.Gen.KernelIdeal.Skeleton
import proofs.«400590_j2894807957766_4_alg».proof.Proof.Gen.KernelIdeal.Launch
import proofs.«400590_j2894807957766_4_alg».proof.Proof.Gen.KernelIdeal.Points
import proofs.«400590_j2894807957766_4_alg».proof.Proof.Gen.KernelIdeal.Frame
import proofs.«400590_j2894807957766_4_alg».proof.Proof.Gen.ReferenceIdeal
import proofs.«400590_j2894807957766_4_alg».proof.Proof.Gen.Pre_finite_inputs
import proofs.«400590_j2894807957766_4_alg».proof.Proof.Gen.ReferenceIdeal.Run
import proofs.«400590_j2894807957766_4_alg».proof.Proof.Gen.ReferenceIdeal.Read
import proofs.«400590_j2894807957766_4_alg».proof.Proof.Spec
import proofs.«400590_j2894807957766_4_alg».proof.Proof.LaneSum
import proofs.«400590_j2894807957766_4_alg».proof.Proof.LibSumIdx
import proofs.«400590_j2894807957766_4_alg».proof.Proof.BlockValue
import proofs.«400590_j2894807957766_4_alg».proof.Proof.ArrayValue
import proofs.«400590_j2894807957766_4_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the three arguments both programs end at the batch mean `Cert.Mmd.total` of them. -/
theorem algebraic : Cert.algebraic_KernelIdeal_ReferenceIdeal := by
  intro m ρ m' ρ' _ hagree
  refine ⟨fun c => fun _ => Cert.Mmd.total (Cert.KernelIdeal.ArrValue.xs m c) (Cert.KernelIdeal.ArrValue.ys m c)
    (Cert.KernelIdeal.ArrValue.ws m c), Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, Cert.ReferenceIdeal.RefValue.ref_value, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
